-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x512 : Shape := ⟨3, ![8, 16384, 512]⟩
abbrev S8x512 : Shape := ⟨2, ![8, 512]⟩
abbrev S512x512 : Shape := ⟨2, ![512, 512]⟩
abbrev S512 : Shape := ⟨1, ![512]⟩
abbrev S_ : Shape := ⟨0, ![]⟩

class Facts : Prop where
  bcast_S_S8x16384x512 : S_.BroadcastsInDim S8x16384x512 (![] : Fin 0 → Fin S8x16384x512.rank)
  reducesTo_S8x16384x512_S_d0_1_2 : S8x16384x512.ReducesTo [0, 1, 2] S_
  h_S_ : 0 < S_.numel
  bcast_S_S8x512 : S_.BroadcastsInDim S8x512 (![] : Fin 0 → Fin S8x512.rank)
  reducesTo_S8x512_S_d0_1 : S8x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S8x16384x512 .f32) (main_arg1 : FVec F S8x512 .f32) (main_arg2 : FVec F S512x512 .f32) (main_arg3 : FVec F S512x512 .f32) (main_arg4 : FVec F S512 .f32) (main_arg5 : FVec F S512 .f32) : IVec S_ 1 :=
  let main_v0 : FVec F S8x16384x512 .f32 := Host.absf main_arg0
  let main_cst : FVec F S_ .f32 := constant S_ .f32 0x7F800000#32
  let main_v1 : FVec F S8x16384x512 .f32 := broadcastInDim S8x16384x512 ![] bcast_S_S8x16384x512 main_cst
  let main_v2 : IVec S8x16384x512 1 := cmpf .olt main_v0 main_v1
  let main_c : IVec S_ 1 := constantI S_ 1 1#1
  let main_v3 : IVec S_ 1 := (fun x v => Host.reduce IntOp.andi x v reducesTo_S8x16384x512_S_d0_1_2 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S8x16384x512 : Shape := ⟨3, ![8, 16384, 512]⟩
abbrev S8x512 : Shape := ⟨2, ![8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8x1x512 : Shape := ⟨3, ![8, 1, 512]⟩
abbrev S1x1024x512 : Shape := ⟨3, ![1, 1024, 512]⟩
abbrev S1x1x512 : Shape := ⟨3, ![1, 1, 512]⟩
abbrev S1024x512 : Shape := ⟨2, ![1024, 512]⟩

abbrev nBuf : Space → Nat
  | .hbm => 26
  | .vmem => 10
  | .smem => 0
  | _ => 0

abbrev bufTy : (tb : Table) → Fin (tcTables nBuf tb) → BufTy
  | .hbm, ⟨0, _⟩ => ⟨S8x16384x512, .f32⟩
  | .hbm, ⟨1, _⟩ => ⟨S8x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S1x512, .f32⟩
  | .hbm, ⟨11, _⟩ => ⟨S8x512, .f32⟩
  | .hbm, ⟨12, _⟩ => ⟨S8x512, .f32⟩
  | .hbm, ⟨13, _⟩ => ⟨S512x512, .f32⟩
  | .hbm, ⟨14, _⟩ => ⟨S8x512, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512, .f32⟩
  | .hbm, ⟨20, _⟩ => ⟨S512x512, .f32⟩
  | .hbm, ⟨21, _⟩ => ⟨S512x512, .bf16⟩
  | .hbm, ⟨22, _⟩ => ⟨S8x1x512, .f32⟩
  | .hbm, ⟨23, _⟩ => ⟨S8x1x512, .f32⟩
  | .hbm, ⟨24, _⟩ => ⟨S1x512, .f32⟩
  | .hbm, ⟨25, _⟩ => ⟨S8x16384x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S512x512, .bf16⟩
  | .local _ .vmem, ⟨7, _⟩ => ⟨S1x512, .f32⟩
  | .local _ .vmem, ⟨8, _⟩ => ⟨S1x1024x512, .f32⟩
  | .local _ .vmem, ⟨9, _⟩ => ⟨S1x1024x512, .f32⟩
  | _, _ => ⟨S8x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x512 : S_.BroadcastsInDim S8x512 (![] : Fin 0 → Fin S8x512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  transposes_S512x512_S512x512_1_0 : S512x512.Transposes [1, 0] S512x512
  bitsLt_bf16_f32 : FTy.bits .bf16 < FTy.bits .f32
  shapeCasts_S8x512_S8x1x512 : S8x512.ShapeCasts S8x1x512
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S1x512_S1x512_0_0 : ∀ a, (![0, 0] : Fin 2 → Nat) a + S1x512.size a ≤ S1x512.size a
  h_S1x512 : 0 < S1x512.numel
  shapeCasts_S1x512_S512 : S1x512.ShapeCasts S512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S1x512_S1024x512 : S1x512.Broadcasts S1024x512
  shapeCasts_S1024x512_S1x1024x512 : S1024x512.ShapeCasts S1x1024x512
  dot_S8x512_S512x512_S8x512_1_1_0_0_n_n_wf : DotDims.WF S8x512 S512x512 S8x512 [1] [1] [0] [0] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x16384x512.size a
  hwx0_0 : ∀ i : grid0.Coords, EltTy.bits .f32 = 32 ∨ (Rect.block (s := S8x16384x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S8x1x512.size a
  hwx0_1 : ∀ i : grid0.Coords, EltTy.bits .f32 = 32 ∨ (Rect.block (s := S8x1x512) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S8x16384x512.size a
  hwx0_5 : ∀ i : grid0.Coords, EltTy.bits .f32 = 32 ∨ (Rect.block (s := S8x16384x512) S1x1024x512.size (cc0_transform_5 i) (hinb0_5 i)).WholeWords (EltTy.packing .f32)

variable [Facts₀]

def dot_S8x512_S512x512_S8x512_1_1_0_0_n_n : DotDims S8x512 S512x512 S8x512 where
  lhsContracting := [1]
  rhsContracting := [1]
  lhsNonContracting := [0]
  rhsNonContracting := [0]
  lhsBatch := []
  rhsBatch := []
  wf := dot_S8x512_S512x512_S8x512_1_1_0_0_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x16384x512 : Shape := ⟨3, ![8, 16384, 512]⟩
abbrev S8x512 : Shape := ⟨2, ![8, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8x1x512 : Shape := ⟨3, ![8, 1, 512]⟩
abbrev S1x1x512 : Shape := ⟨3, ![1, 1, 512]⟩

abbrev nBuf : Space → Nat
  | .hbm => 48
  | .vmem => 0
  | .smem => 0
  | _ => 0

abbrev bufTy : (tb : Table) → Fin (tcTables nBuf tb) → BufTy
  | .hbm, ⟨0, _⟩ => ⟨S8x16384x512, .f32⟩
  | .hbm, ⟨1, _⟩ => ⟨S8x512, .f32⟩
  | .hbm, ⟨2, _⟩ => ⟨S512x512, .f32⟩
  | .hbm, ⟨3, _⟩ => ⟨S512x512, .f32⟩
  | .hbm, ⟨4, _⟩ => ⟨S512, .f32⟩
  | .hbm, ⟨5, _⟩ => ⟨S512, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S1x512, .f32⟩
  | .hbm, ⟨11, _⟩ => ⟨S8x512, .f32⟩
  | .hbm, ⟨12, _⟩ => ⟨S8x512, .f32⟩
  | .hbm, ⟨13, _⟩ => ⟨S512x512, .f32⟩
  | .hbm, ⟨14, _⟩ => ⟨S8x512, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512, .f32⟩
  | .hbm, ⟨20, _⟩ => ⟨S8x1x512, .f32⟩
  | .hbm, ⟨21, _⟩ => ⟨S8x16384x512, .f32⟩
  | .hbm, ⟨22, _⟩ => ⟨S8x16384x512, .f32⟩
  | .hbm, ⟨23, _⟩ => ⟨S8x16384x512, .f32⟩
  | .hbm, ⟨24, _⟩ => ⟨S8x1x512, .f32⟩
  | .hbm, ⟨25, _⟩ => ⟨S8x16384x512, .f32⟩
  | .hbm, ⟨26, _⟩ => ⟨S8x16384x512, .f32⟩
  | .hbm, ⟨27, _⟩ => ⟨S1x1x512, .f32⟩
  | .hbm, ⟨28, _⟩ => ⟨S8x16384x512, .f32⟩
  | .hbm, ⟨29, _⟩ => ⟨S8x16384x512, .f32⟩
  | .hbm, ⟨30, _⟩ => ⟨S_, .f32⟩
  | .hbm, ⟨31, _⟩ => ⟨S8x16384x512, .f32⟩
  | .hbm, ⟨32, _⟩ => ⟨S8x16384x512, .i1⟩
  | .hbm, ⟨33, _⟩ => ⟨S_, .f32⟩
  | .hbm, ⟨34, _⟩ => ⟨S8x16384x512, .f32⟩
  | .hbm, ⟨35, _⟩ => ⟨S8x16384x512, .f32⟩
  | .hbm, ⟨36, _⟩ => ⟨S8x16384x512, .f32⟩
  | .hbm, ⟨37, _⟩ => ⟨S_, .f32⟩
  | .hbm, ⟨38, _⟩ => ⟨S8x16384x512, .f32⟩
  | .hbm, ⟨39, _⟩ => ⟨S8x16384x512, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x16384x512, .f32⟩
  | .hbm, ⟨44, _⟩ => ⟨S8x16384x512, .f32⟩
  | .hbm, ⟨45, _⟩ => ⟨S_, .f32⟩
  | .hbm, ⟨46, _⟩ => ⟨S8x16384x512, .f32⟩
  | .hbm, ⟨47, _⟩ => ⟨S8x16384x512, .f32⟩
  | _, _ => ⟨S8x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x1x512_0_2 : S8x512.BroadcastsInDim S8x1x512 (![0, 2] : Fin 2 → Fin S8x1x512.rank)
  bcast_S8x1x512_S8x16384x512_0_1_2 : S8x1x512.BroadcastsInDim S8x16384x512 (![0, 1, 2] : Fin 3 → Fin S8x16384x512.rank)
  bcast_S512_S1x1x512_2 : S512.BroadcastsInDim S1x1x512 (![2] : Fin 1 → Fin S1x1x512.rank)
  bcast_S1x1x512_S8x16384x512_0_1_2 : S1x1x512.BroadcastsInDim S8x16384x512 (![0, 1, 2] : Fin 3 → Fin S8x16384x512.rank)
  bcast_S_S8x16384x512 : S_.BroadcastsInDim S8x16384x512 (![] : Fin 0 → Fin S8x16384x512.rank)
  dot_S8x512_S512x512_S8x512_1_1_0_0_n_n_wf : DotDims.WF S8x512 S512x512 S8x512 [1] [1] [0] [0] [] []
  dot_S8x16384x512_S512x512_S8x16384x512_2_1_01_0_n_n_wf : DotDims.WF S8x16384x512 S512x512 S8x16384x512 [2] [1] [0, 1] [0] [] []

variable [Facts₀]

def dot_S8x512_S512x512_S8x512_1_1_0_0_n_n : DotDims S8x512 S512x512 S8x512 where
  lhsContracting := [1]
  rhsContracting := [1]
  lhsNonContracting := [0]
  rhsNonContracting := [0]
  lhsBatch := []
  rhsBatch := []
  wf := dot_S8x512_S512x512_S8x512_1_1_0_0_n_n_wf
def dot_S8x16384x512_S512x512_S8x16384x512_2_1_01_0_n_n : DotDims S8x16384x512 S512x512 S8x16384x512 where
  lhsContracting := [2]
  rhsContracting := [1]
  lhsNonContracting := [0, 1]
  rhsNonContracting := [0]
  lhsBatch := []
  rhsBatch := []
  wf := dot_S8x16384x512_S512x512_S8x16384x512_2_1_01_0_n_n_wf

class Facts : Prop extends Facts₀ where

variable [Facts]
-- ==== Proof.Spec.lean ====
/-
  The style-modulated 1×1 convolution with demodulation, bias, leaky ReLU and clamp, as ONE function of its arrays,
  index by index, over the extended reals.

  For a sample n, a position l and an output channel o,

      out[n, l, o] = act( (∑ k, x[n, l, k] · style[n, k] · W[o, k]) · demod[n, o] + bias[o] ),

  where act(y) = min(256, max(−256, (if y ≥ 0 then y else f32(0.2) · y) · f32(√2))). The float literals stay the
  binary words both programs print (the same word on both sides is never evaluated), and the scalar operations are
  the float operations read at the ideal instance, so that both programs' terms meet this one syntactically.
-/
import Idealize.ShloMosaic.PureOps.Ideal
import Idealize.ShloMosaic.Lib.ValueIdx

noncomputable section

open scoped BigOperators

namespace Cert.ModConv

open Idealize.ShloMosaic Idealize.ShloMosaic.ValueIdx

/-- The scalar tail applied to every entry: leaky ReLU with slope f32(0.2), the gain f32(√2), then the clamp to
    [−256, 256] (lower bound first, then upper bound). -/
def act (y : Ideal .f32) : Ideal .f32 :=
  FloatOps.minimumf (FloatOps.ofBits (F := Ideal) .f32 0x43800000#32)
    (FloatOps.maximumf (FloatOps.ofBits (F := Ideal) .f32 0xC3800000#32)
      (FloatOps.mulf
        (Scalar.select (FloatOps.cmpf .oge y (FloatOps.ofBits (F := Ideal) .f32 0x00000000#32)) y
          (FloatOps.mulf (FloatOps.ofBits (F := Ideal) .f32 0x3E4CCCCD#32) y))
        (FloatOps.ofBits (F := Ideal) .f32 0x3FB504F3#32)))

/-- The whole result array from the input `x` [8, 16384, 512], the per-sample style and demodulation coefficients
    [8, 512], the weight matrix `W` [out, in] = [512, 512] and the bias [512]: entry (n, l, o) contracts the
    modulated row x[n, l, ·] · style[n, ·] with row o of `W`, scales by demod[n, o], adds bias[o], and applies `act`. -/
def out (x : FVec Ideal ⟨3, ![8, 16384, 512]⟩ .f32) (sty dec : FVec Ideal ⟨2, ![8, 512]⟩ .f32)
    (W : FVec Ideal ⟨2, ![512, 512]⟩ .f32) (b : FVec Ideal ⟨1, ![512]⟩ .f32) : FVec Ideal ⟨3, ![8, 16384, 512]⟩ .f32 :=
  fun i => act ((∑ k : Fin 512, x (ix3 (i 0) (i 1) k) * sty (ix2 (i 0) k) * W (ix2 (i 2) k)) * dec (ix2 (i 0) (i 2))
    + b (ix1 (i 2)))

end Cert.ModConv

end
-- ==== Proof.RefIsSpec.lean ====
/-
  The reference's result is the specification's function of its arrays.

  Read one operation at a time, entry (n, l, o) of the reference's result is the clamp and leaky ReLU of
  (∑ k, (x[n, l, k] · style[n, k]) · W[o, k]) · demod[n, o] + bias[o]: the style and the demodulation coefficients
  reach the product through broadcasts along the position axis, which read entry (n, k) — resp. (n, o) — of the
  [8, 512] arrays, and the bias through broadcasts that read entry o.
-/
import proofs.«111173_j56453050139463_1_alg».proof.Proof.Gen.ReferenceIdeal.Read
import proofs.«111173_j56453050139463_1_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The contraction reads the modulated input at (n, l, k). -/
theorem lhs_at (i : S8x16384x512.Idx) (k : Fin 512) : lidx_main_v15 i k = ix3 (i 0) (i 1) k :=
  funext fun a => match a with | ⟨0, _⟩ => rfl | ⟨1, _⟩ => rfl | ⟨2, _⟩ => rfl

/-- The contraction reads the weight at (o, k). -/
theorem rhs_at (i : S8x16384x512.Idx) (k : Fin 512) : ridx_main_v15 i k = ix2 (i 2) k :=
  funext fun a => match a with | ⟨0, _⟩ => rfl | ⟨1, _⟩ => rfl

/-- The style broadcast along the positions reads entry (n, k). -/
theorem style_at (i : S8x16384x512.Idx) (k : Fin 512) :
    idx_main_v12 (idx_main_v13 (lidx_main_v15 i k)) = ix2 (i 0) k :=
  funext fun a => match a with | ⟨0, _⟩ => rfl | ⟨1, _⟩ => rfl

/-- The demodulation coefficients broadcast along the positions read entry (n, o). -/
theorem demod_at (i : S8x16384x512.Idx) : idx_main_v16 (idx_main_v17 i) = ix2 (i 0) (i 2) :=
  funext fun a => match a with | ⟨0, _⟩ => rfl | ⟨1, _⟩ => rfl

/-- The bias broadcast over samples and positions reads entry o. -/
theorem bias_at (i : S8x16384x512.Idx) : idx_main_v19 (idx_main_v20 i) = ix1 (i 2) :=
  funext fun a => match a with | ⟨0, _⟩ => rfl

/-- The reference's last stage is the specification at the input, the style stage, the demodulation stage, the weight
    and the bias. -/
theorem result_eq (x0 : (⟨S8x16384x512, .f32⟩ : BufTy).Contents (Elt Ideal)) (x1 : (⟨S8x512, .f32⟩ : BufTy).Contents (Elt Ideal))
    (x2 x3 : (⟨S512x512, .f32⟩ : BufTy).Contents (Elt Ideal)) (x4 x5 : (⟨S512, .f32⟩ : BufTy).Contents (Elt Ideal)) :
    val_main_v29 (F := Ideal) x0 x1 x2 x3 x4 x5
      = Cert.ModConv.out x0 (val_main_v5 (F := Ideal) x1 x3 x4) (val_main_v11 (F := Ideal) x1 x2 x3 x4) x2 x5 := by
  funext i
  rw [val_main_v29_apply, val_main_call1_v4_apply, val_main_call1_v3_apply, val_main_cst_5_apply,
    val_main_call1_v2_apply, val_main_call1_v1_apply, val_main_call1_v0_apply, val_main_cst_4_apply,
    val_main_v28_apply, val_main_v27_apply, val_main_cst_3_apply, val_main_v26_apply, val_main_v23_apply,
    val_main_v25_apply, val_main_v24_apply, val_main_cst_2_apply, val_main_v22_apply, val_main_cst_1_apply,
    val_main_v21_apply, val_main_v20_apply, val_main_v19_apply, val_main_v18_apply, val_main_v17_apply,
    val_main_v16_apply, val_main_v15_apply]
  have hs : ∀ k : Fin 512, val_main_v14 (F := Ideal) x0 x1 x3 x4 (lidx_main_v15 i k) * x2 (ridx_main_v15 i k)
      = x0 (ix3 (i 0) (i 1) k) * val_main_v5 (F := Ideal) x1 x3 x4 (ix2 (i 0) k) * x2 (ix2 (i 2) k) := fun k => by
    rw [val_main_v14_apply, val_main_v13_apply, val_main_v12_apply]
    simp only [style_at]
    simp only [lhs_at, rhs_at]
    rfl
  rw [Finset.sum_congr rfl fun k _ => hs k]
  simp only [demod_at, bias_at]
  rfl

end Cert.ReferenceIdeal.RefValue

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Payload.lean ====
/-
  What the kernel body stores, entry by entry.

  At one grid point the body holds a [1, 1024, 512] block of the input, the sample's style and demodulation rows
  (each [1, 1, 512]), the bias row [1, 512] and the transposed weight [512 (in), 512 (out)] in the short float
  format, which at the ideal instance is no rounding. Entry (0, r, o) of what it stores is

      act( (∑ k, x[0, r, k] · style[0, 0, k] · Wt[k, o]) · demod[0, 0, o] + bias[0, o] ):

  the product of the modulated block with the transposed weight into a zero accumulator is that sum, the three
  per-channel rows are spread over the 1024 rows of the block, and the rest is pointwise.
-/
import proofs.«111173_j56453050139463_1_alg».proof.Proof.Gen.KernelIdeal.Skeleton
import proofs.«111173_j56453050139463_1_alg».proof.Proof.Spec
import proofs.«111173_j56453050139463_1_alg».proof.Proof.LibDot
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A [1, 1, a] array viewed as a vector of length a reads, at i, the entry (0, 0, i): the row-major position is i
    on both sides. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A per-channel row held as [1, 1, 512], flattened, made a [1, 512] row and spread over 1024 rows, reads at
    (r, o) the row's entry o. -/
theorem chan_spread (v : FVec Ideal S1x1x512 .f32) (h1 : S1x1x512.ShapeCasts S512) (h2 : S512.ShapeCasts S1x512)
    (h3 : S1x512.Broadcasts S1024x512) (r : Fin 1024) (o : Fin 512) :
    broadcastTo S1024x512 (shapeCast S1x512 (shapeCast S512 v h1) h2) h3 (ix2 r o) = v (ix3 (0 : Fin 1) (0 : Fin 1) o) := by
  rw [broadcastTo_1b_ab_apply, shapeCast_a_1a_apply, shapeCast_11a_a_apply]

/-- The same for a row held as [1, 512]. -/
theorem row_spread (v : FVec Ideal S1x512 .f32) (h1 : S1x512.ShapeCasts S512) (h2 : S512.ShapeCasts S1x512)
    (h3 : S1x512.Broadcasts S1024x512) (r : Fin 1024) (o : Fin 512) :
    broadcastTo S1024x512 (shapeCast S1x512 (shapeCast S512 v h1) h2) h3 (ix2 r o) = v (ix2 (0 : Fin 1) o) := by
  rw [broadcastTo_1b_ab_apply, shapeCast_a_1a_apply, shapeCast_1a_a_apply]

/-- The body's matrix product at entry (r, o): the block's row r, modulated channel by channel, against column o
    of the transposed weight. The change to the short float format is the identity, and the accumulator is zero. -/
theorem product_at (x : FVec Ideal S1x1024x512 .f32) (s : FVec Ideal S1x1x512 .f32) (w : FVec Ideal S512x512 .bf16)
    (hx : S1x1024x512.ShapeCasts S1024x512) (h1 : S1x1x512.ShapeCasts S512) (h2 : S512.ShapeCasts S1x512)
    (h3 : S1x512.Broadcasts S1024x512) (hb : FTy.bits .bf16 < FTy.bits .f32) (hw : S512x512.ShapeCasts S512x512)
    (r : Fin 1024) (o : Fin 512) :
    matmul dot_S1024x512_S512x512_S1024x512_1_0_0_1_n_n none
        (truncf .bf16 (mulf (shapeCast S1024x512 x hx) (broadcastTo S1024x512 (shapeCast S1x512 (shapeCast S512 s h1) h2) h3)) hb)
        (shapeCast S512x512 w hw) (constant S1024x512 .f32 0x00000000#32) (ix2 r o)
      = ∑ k : Fin 512, x (ix3 (0 : Fin 1) r k) * s (ix3 (0 : Fin 1) (0 : Fin 1) k) * w (ix2 k o) := by
  rw [shapeCast_self]
  refine (Cert.LibDot.matmul_zero_at dot_S1024x512_S512x512_S1024x512_1_0_0_1_n_n rfl rfl rfl rfl rfl rfl none _ w r o).trans ?_
  refine Finset.sum_congr rfl fun k _ => ?_
  rw [truncf_apply, mulf_apply, shapeCast_1ab_ab_apply, chan_spread]

/-- THE PAYLOAD AT AN ENTRY: what the one store of the body writes at (u, r, o), u the block's unit axis. -/
theorem pay_apply (x : FVec Ideal S1x1024x512 .f32) (s d : FVec Ideal S1x1x512 .f32) (b : FVec Ideal S1x512 .f32)
    (w : FVec Ideal S512x512 .bf16) (u : Fin 1) (r : Fin 1024) (o : Fin 512) :
    k0_pay1 (F := Ideal) x s d b w (ix3 u r o)
      = Cert.ModConv.act ((∑ k : Fin 512, x (ix3 (0 : Fin 1) r k) * s (ix3 (0 : Fin 1) (0 : Fin 1) k) * w (ix2 k o))
          * d (ix3 (0 : Fin 1) (0 : Fin 1) o) + b (ix2 (0 : Fin 1) o)) := by
  unfold k0_pay1
  refine (shapeCast_ab_1ab_apply _ _ u r o).trans ?_
  simp only [minimumf_apply, maximumf_apply, mulf_apply, addf_apply, select_apply, cmpf_apply, broadcast_apply]
  rw [product_at, chan_spread, row_spread]
  rfl

end Cert.KernelIdeal.Body

end
-- ==== Proof.Staged.lean ====
/-
  The arrays the region's windows stage, as the host operations before the region leave them.

  The style [8, 512] and the demodulation coefficients [8, 512] are computed by the same host operations in both
  programs (two contractions, the scale, the square, the epsilon, the reciprocal square root), so they are named
  here by the reference's own stages; the kernel's program views each as [8, 1, 512], transposes the weight and
  changes it to the short float format (the identity at the ideal instance), and views the bias as a [1, 512] row.
  Each is read at an entry.
-/
import proofs.«111173_j56453050139463_1_alg».proof.Proof.Gen.KernelIdeal.Frame
import proofs.«111173_j56453050139463_1_alg».proof.Proof.Gen.ReferenceIdeal.Read
import Idealize.ShloMosaic.Lib.ValueLayout
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The per-sample style, [8, 512]: w · style_wᵀ scaled by f32(1/√512) plus style_b, as the host computes it. -/
abbrev style (c : Dev nD) : FVec Ideal S8x512 .f32 :=
  Cert.ReferenceIdeal.Read.val_main_v5 (F := Ideal) (m ((c.tc : Thread nD τ).loc main_arg1))
    (m ((c.tc : Thread nD τ).loc main_arg3)) (m ((c.tc : Thread nD τ).loc main_arg4))

/-- The demodulation coefficients, [8, 512]: the reciprocal square root of style² · (weight²)ᵀ plus the epsilon. -/
abbrev demod (c : Dev nD) : FVec Ideal S8x512 .f32 :=
  Cert.ReferenceIdeal.Read.val_main_v11 (F := Ideal) (m ((c.tc : Thread nD τ).loc main_arg1))
    (m ((c.tc : Thread nD τ).loc main_arg2)) (m ((c.tc : Thread nD τ).loc main_arg3)) (m ((c.tc : Thread nD τ).loc main_arg4))

/-- The array window 1 stages is the style viewed as [8, 1, 512]. -/
theorem style_array (c : Dev nD) :
    (V m c main_v14 : S8x1x512.Idx → Ideal .f32) = shapeCast S8x1x512 (style m c) shapeCasts_S8x512_S8x1x512 := by
  dsimp only [V, hostOps0]
  after_results
  rfl

/-- The array window 2 stages is the demodulation coefficients viewed as [8, 1, 512]. -/
theorem demod_array (c : Dev nD) :
    (V m c main_v15 : S8x1x512.Idx → Ideal .f32) = shapeCast S8x1x512 (demod m c) shapeCasts_S8x512_S8x1x512 := by
  dsimp only [V, hostOps0]
  after_results
  rfl

/-- The array window 3 stages is the weight transposed, in the short float format. -/
theorem wt_array (c : Dev nD) :
    (V m c main_v13 : S512x512.Idx → Ideal .bf16)
      = truncf (F := Ideal) .bf16 (transpose S512x512 [1, 0] (m ((c.tc : Thread nD τ).loc main_arg2) : S512x512.Idx → Ideal .f32)
          transposes_S512x512_S512x512_1_0) bitsLt_bf16_f32 := by
  dsimp only [V, hostOps0]
  after_results

/-- The array window 4 stages is the bias viewed as a [1, 512] row. -/
theorem bias_array (c : Dev nD) :
    (V m c main_v16 : S1x512.Idx → Ideal .f32) = shapeCast S1x512 (m ((c.tc : Thread nD τ).loc main_arg5)) shapeCasts_S512_S1x512 := by
  dsimp only [V, hostOps0]
  after_results
  rfl

/-- Entry (n, 0, k) of the staged style is style[n, k]: the unit axis does not move the row-major position. -/
theorem style_at (c : Dev nD) (n : Fin 8) (u : Fin 1) (k : Fin 512) :
    (V m c main_v14 : S8x1x512.Idx → Ideal .f32) (ix3 n u k) = style m c (ix2 n k) :=
  (congrFun (style_array m c) (ix3 n u k)).trans (shapeCast_apply _ _ _ _ (by
    have hu : u.val = 0 := by omega
    rw [Shape.rowMajor_val_two, Shape.rowMajor_val_three]
    show n.val * 512 + k.val = (n.val * 1 + u.val) * 512 + k.val
    rw [hu]; omega))

/-- Entry (n, 0, o) of the staged demodulation coefficients is demod[n, o]. -/
theorem demod_at (c : Dev nD) (n : Fin 8) (u : Fin 1) (o : Fin 512) :
    (V m c main_v15 : S8x1x512.Idx → Ideal .f32) (ix3 n u o) = demod m c (ix2 n o) :=
  (congrFun (demod_array m c) (ix3 n u o)).trans (shapeCast_apply _ _ _ _ (by
    have hu : u.val = 0 := by omega
    rw [Shape.rowMajor_val_two, Shape.rowMajor_val_three]
    show n.val * 512 + o.val = (n.val * 1 + u.val) * 512 + o.val
    rw [hu]; omega))

/-- Entry (k, o) of the staged transposed weight is weight[o, k]. -/
theorem wt_at (c : Dev nD) (k o : Fin 512) :
    (V m c main_v13 : S512x512.Idx → Ideal .bf16) (ix2 k o) = m ((c.tc : Thread nD τ).loc main_arg2) (ix2 o k) :=
  (congrFun (wt_array m c) (ix2 k o)).trans (transpose_ix2_apply _ _ k o)

/-- Entry (0, o) of the staged bias row is bias[o]. -/
theorem bias_at (c : Dev nD) (u : Fin 1) (o : Fin 512) :
    (V m c main_v16 : S1x512.Idx → Ideal .f32) (ix2 u o) = m ((c.tc : Thread nD τ).loc main_arg5) (ix1 o) :=
  (congrFun (bias_array m c) (ix2 u o)).trans (shapeCast_a_1a_apply _ _ u o)

end Cert.KernelIdeal.Staged

end
-- ==== Proof.Blocks.lean ====
/-
  From what each grid point writes back to the whole result array.

  The grid is 8 samples × 16 tiles of 1024 positions. At point (n, j) the body sees rows 1024·j … 1024·j + 1023 of
  sample n of the input, row n of the style and of the demodulation coefficients, the whole transposed weight and
  the bias row, and writes back rows 1024·j … 1024·j + 1023 of sample n of the result. Entry by entry that block is
  the specification's function of the whole arrays restricted to the block, and the 128 blocks tile the result, so
  the array the run leaves is that function.
-/
import proofs.«111173_j56453050139463_1_alg».proof.Proof.Gen.KernelIdeal.Value
import proofs.«111173_j56453050139463_1_alg».proof.Proof.Payload
import proofs.«111173_j56453050139463_1_alg».proof.Proof.Staged
import proofs.«111173_j56453050139463_1_alg».proof.Proof.Spec
import Idealize.ShloMosaic.Lib.Pipeline.Value
import Idealize.ShloMosaic.Lib.Tactic

noncomputable section

open scoped BigOperators

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array: the specification at the input, the host's style and demodulation coefficients, the weight
    and the bias, all as launched. -/
abbrev result (c : Dev nD) : FVec Ideal S8x16384x512 .f32 :=
  Cert.ModConv.out (m ((c.tc : Thread nD τ).loc main_arg0)) (Staged.style m c) (Staged.demod m c)
    (m ((c.tc : Thread nD τ).loc main_arg2)) (m ((c.tc : Thread nD τ).loc main_arg5))

/-- The printed index maps over the 128 grid points: the input's block moves with the result's block; the style's
    and the demodulation coefficients' block follows the sample and stays at 0 on the other axes; the weight's and
    the bias's block never moves; the result's block index is (sample, tile, 0). -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (2 : Fin 3) = 0 ∧ win0_5.index t (0 : Fin 3) < 8 ∧ win0_5.index t (1 : Fin 3) < 16 :=
  (by decide +kernel : ∀ t : Fin grid0.N, _)

/-- Every (sample, tile) is some grid point's result block. -/
theorem idx_onto : ∀ (q0 : Fin 8) (q1 : Fin 16), ∃ t : Fin cfg0.N, win0_5.index t = ![q0.val, q1.val, 0] :=
  (by decide +kernel : ∀ (q0 : Fin 8) (q1 : Fin 16), ∃ t : Fin grid0.N, win0_5.index t = ![q0.val, q1.val, 0])

/-! ## Each input block, read at an entry, as an entry of a whole array -/

/-- The input's block at point t, entry (0, r, k), is the input at (sample, 1024 · tile + r, k). -/
theorem xblk_at (c : Dev nD) (t : Fin cfg0.N) (u : Fin 1) (r : Fin 1024) (k : Fin 512) (j : S8x16384x512.Idx)
    (h0 : (j 0).val = win0_5.index t (0 : Fin 3)) (h1 : (j 1).val = win0_5.index t (1 : Fin 3) * 1024 + r.val)
    (h2 : (j 2).val = k.val) :
    (iblk m c 0 t : Vec Ideal S1x1024x512 .f32) (ix3 u r k) = m ((c.tc : Thread nD τ).loc main_arg0) j := by
  obtain ⟨e0, e1, e2, -⟩ := idx_facts t
  have hu : u.val = 0 := by omega
  unfold iblk
  rw [View.read_apply]
  refine (congrFun (V_main_arg0 m c) _).trans ?_
  refine congrArg _ (funext fun a => Fin.ext ?_)
  match a with
  | ⟨0, _⟩ => show win0_0.index t (0 : Fin 3) * 1 + 1 * u.val = (j 0).val; omega
  | ⟨1, _⟩ => show win0_0.index t (1 : Fin 3) * 1024 + 1 * r.val = (j 1).val; omega
  | ⟨2, _⟩ => show win0_0.index t (2 : Fin 3) * 512 + 1 * k.val = (j 2).val; omega

/-- The style's block at point t, entry (0, 0, k), is style[sample, k]. -/
theorem sblk_at (c : Dev nD) (t : Fin cfg0.N) (u v : Fin 1) (k : Fin 512) (n : Fin 8)
    (hn : n.val = win0_5.index t (0 : Fin 3)) :
    (iblk m c 1 t : Vec Ideal S1x1x512 .f32) (ix3 u v k) = Staged.style m c (ix2 n k) := by
  obtain ⟨-, -, -, e3, e4, e5, -⟩ := idx_facts t
  have hu : u.val = 0 := by omega
  have hv : v.val = 0 := by omega
  unfold iblk
  rw [View.read_apply]
  refine Eq.trans ?_ (Staged.style_at m c n 0 k)
  show V m c main_v14 _ = V m c main_v14 _
  refine congrArg _ (funext fun a => Fin.ext ?_)
  match a with
  | ⟨0, _⟩ => show win0_1.index t (0 : Fin 3) * 1 + 1 * u.val = n.val; omega
  | ⟨1, _⟩ => show win0_1.index t (1 : Fin 3) * 1 + 1 * v.val = 0; omega
  | ⟨2, _⟩ => show win0_1.index t (2 : Fin 3) * 512 + 1 * k.val = k.val; omega

/-- The demodulation coefficients' block at point t, entry (0, 0, o), is demod[sample, o]. -/
theorem dblk_at (c : Dev nD) (t : Fin cfg0.N) (u v : Fin 1) (o o' : Fin 512) (n : Fin 8)
    (hn : n.val = win0_5.index t (0 : Fin 3)) (ho : o'.val = o.val) :
    (iblk m c 2 t : Vec Ideal S1x1x512 .f32) (ix3 u v o) = Staged.demod m c (ix2 n o') := by
  obtain rfl : o' = o := Fin.ext ho
  obtain ⟨-, -, -, -, -, -, e6, e7, e8, -⟩ := idx_facts t
  have hu : u.val = 0 := by omega
  have hv : v.val = 0 := by omega
  unfold iblk
  rw [View.read_apply]
  refine Eq.trans ?_ (Staged.demod_at m c n 0 o')
  show V m c main_v15 _ = V m c main_v15 _
  refine congrArg _ (funext fun a => Fin.ext ?_)
  match a with
  | ⟨0, _⟩ => show win0_2.index t (0 : Fin 3) * 1 + 1 * u.val = n.val; omega
  | ⟨1, _⟩ => show win0_2.index t (1 : Fin 3) * 1 + 1 * v.val = 0; omega
  | ⟨2, _⟩ => show win0_2.index t (2 : Fin 3) * 512 + 1 * o'.val = o'.val; omega

/-- The transposed weight's block is the whole array at every point: entry (k, o) is weight[o, k]. -/
theorem wblk_at (c : Dev nD) (t : Fin cfg0.N) (k o o' : Fin 512) (ho : o'.val = o.val) :
    (iblk m c 3 t : Vec Ideal S512x512 .bf16) (ix2 k o) = m ((c.tc : Thread nD τ).loc main_arg2) (ix2 o' k) := by
  obtain rfl : o' = o := Fin.ext ho
  obtain ⟨-, -, -, -, -, -, -, -, -, e9, e10, -⟩ := idx_facts t
  unfold iblk
  rw [View.read_apply]
  refine Eq.trans ?_ (Staged.wt_at m c k o')
  show V m c main_v13 _ = V m c main_v13 _
  refine congrArg _ (funext fun a => Fin.ext ?_)
  match a with
  | ⟨0, _⟩ => show win0_3.index t (0 : Fin 2) * 512 + 1 * k.val = k.val; omega
  | ⟨1, _⟩ => show win0_3.index t (1 : Fin 2) * 512 + 1 * o'.val = o'.val; omega

/-- The bias row's block is the whole row at every point: entry (0, o) is bias[o]. -/
theorem bblk_at (c : Dev nD) (t : Fin cfg0.N) (u : Fin 1) (o o' : Fin 512) (ho : o'.val = o.val) :
    (iblk m c 4 t : Vec Ideal S1x512 .f32) (ix2 u o) = m ((c.tc : Thread nD τ).loc main_arg5) (ix1 o') := by
  obtain rfl : o' = o := Fin.ext ho
  obtain ⟨-, -, -, -, -, -, -, -, -, -, -, e11, e12, -⟩ := idx_facts t
  have hu : u.val = 0 := by omega
  unfold iblk
  rw [View.read_apply]
  refine Eq.trans ?_ (Staged.bias_at m c 0 o')
  show V m c main_v16 _ = V m c main_v16 _
  refine congrArg _ (funext fun a => Fin.ext ?_)
  match a with
  | ⟨0, _⟩ => show win0_4.index t (0 : Fin 2) * 1 + 1 * u.val = 0; omega
  | ⟨1, _⟩ => show win0_4.index t (1 : Fin 2) * 512 + 1 * o'.val = o'.val; omega

/-! ## What a point writes back, the cover, the array -/

/-- WHAT POINT t WRITES BACK is block t of the result array: the body's payload at an entry of the block is the
    specification at the array index under it, factor by factor. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S1x1024x512) hz3, View.ld_unit_zero (S := S1x1x512) hz3,
    View.ld_unit_zero (S := S1x512) hz2, View.ld_unit_zero (S := S512x512) hz2]
  obtain ⟨-, -, -, -, -, -, -, -, -, -, -, -, -, e13, e14, e15⟩ := idx_facts t
  funext y
  obtain ⟨u, r, o, rfl⟩ : ∃ (u : Fin 1) (r : Fin 1024) (o : Fin 512), y = ix3 u r o := ⟨y 0, y 1, y 2, eq_ix3 y⟩
  have hu : u.val = 0 := by omega
  have he0 : ((((cfg0.win 5).blk t).view.emb (ix3 u r o)) 0).val = win0_5.index t (0 : Fin 3) := by
    show win0_5.index t (0 : Fin 3) * 1 + 1 * u.val = _; omega
  have he1 : ((((cfg0.win 5).blk t).view.emb (ix3 u r o)) 1).val = win0_5.index t (1 : Fin 3) * 1024 + r.val := by
    show win0_5.index t (1 : Fin 3) * 1024 + 1 * r.val = _; omega
  have he2 : ((((cfg0.win 5).blk t).view.emb (ix3 u r o)) 2).val = o.val := by
    show win0_5.index t (2 : Fin 3) * 512 + 1 * o.val = _; omega
  show k0_pay1 (F := Ideal) (iblk m c 0 t) (iblk m c 1 t) (iblk m c 2 t) (iblk m c 4 t) (iblk m c 3 t) (ix3 u r o)
    = result m c (((cfg0.win 5).blk t).view.emb (ix3 u r o))
  refine (Body.pay_apply (iblk m c 0 t) (iblk m c 1 t) (iblk m c 2 t) (iblk m c 4 t) (iblk m c 3 t) u r o).trans ?_
  show Cert.ModConv.act _ = Cert.ModConv.act _
  refine congrArg Cert.ModConv.act ?_
  refine congrArg₂ (· + ·) (congrArg₂ (· * ·) (Finset.sum_congr rfl fun k _ => ?_) ?_) ?_
  · refine congrArg₂ (· * ·) (congrArg₂ (· * ·) ?_ ?_) ?_
    · exact xblk_at m c t 0 r k _ he0 he1 rfl
    · exact sblk_at m c t 0 0 k _ he0
    · exact wblk_at m c t k o _ he2
  · exact dblk_at m c t 0 0 o _ _ he0 he2
  · exact bblk_at m c t 0 o _ he2

/-- An index of the result is in point t's block iff each coordinate is in the block's range on its axis. -/
theorem mem_blk (t : Fin cfg0.N) (i : S8x16384x512.Idx) :
    i ∈ ((cfg0.win 5).blk t).view.set ↔ ∀ a : Fin 3, win0_5.index t a * S1x1024x512.size a ≤ (i a).val
      ∧ (i a).val < win0_5.index t a * S1x1024x512.size a + S1x1024x512.size a := by
  show i ∈ ((View.whole main_v17).slice (win0_5.rect t)).set ↔ _
  rw [View.set_slice_whole, Rect.mem_set_unit]
  exact Iff.rfl

/-- Every index of the result is in some point's block: sample i₀, tile i₁ / 1024. -/
theorem cover (i : S8x16384x512.Idx) :
    ∃ t : Fin cfg0.N, (cfg0.win 5).flush t = true ∧ i ∈ ((cfg0.win 5).blk t).view.set := by
  have h0 : (i 0).val < 8 := (i 0).isLt
  have h1 : (i 1).val < 16384 := (i 1).isLt
  have h2 : (i 2).val < 512 := (i 2).isLt
  obtain ⟨t, ht⟩ := idx_onto ⟨(i 0).val, h0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 512 ≤ (i 2).val ∧ (i 2).val < win0_5.index t (2 : Fin 3) * 512 + 512; omega

/-- THE ARRAY after the run is the specification's function of the arrays as launched. -/
theorem final (c : Dev nD) : (dats m 0 c).arrAt 5 cfg0.N = result m c :=
  (dats m 0 c).arrAt_eq_of_cover 5 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.lean ====
/-
  A style-modulated 1×1 convolution with demodulation, bias, leaky ReLU and clamp, against its plain reference, over
  the extended reals.

  Both programs compute, for sample n, position l and output channel o,

      out[n, l, o] = act( (∑ k, x[n, l, k] · style[n, k] · W[o, k]) · demod[n, o] + bias[o] ),
      act(y) = min(256, max(−256, (if y ≥ 0 then y else f32(0.2) · y) · f32(√2))),

  where style = w · style_wᵀ · f32(1/√512) + style_b and demod = rsqrt(style² · (W²)ᵀ + f32(1e-8)) are computed by the
  same host operations in both programs. The kernel tiles the 16384 positions of each sample into 16 blocks of 1024
  rows, multiplies each modulated block by the transposed weight into a zero accumulator (the change of the operands
  to the short float format is the identity over the extended reals), and applies the pointwise tail; the reference
  broadcasts style, demod and bias to the full shape and contracts the channel axis in one product. The summands
  x · style · W are the same terms in the same order on both sides, so no law of arithmetic is needed, and the
  finiteness of the inputs is never used.

  Spec.lean states the result as one function of the arrays; RefIsSpec.lean reads the reference's stages as that
  function; Payload.lean reads what the kernel body stores at an entry; Staged.lean reads the arrays the host
  operations leave for the kernel's windows; Blocks.lean goes from the 128 written-back blocks to the whole array.
-/
import proofs.«111173_j56453050139463_1_alg».proof.Defs
import proofs.«111173_j56453050139463_1_alg».proof.Proof.Gen.Kernel
import proofs.«111173_j56453050139463_1_alg».proof.Proof.Gen.Kernel.Skeleton
import proofs.«111173_j56453050139463_1_alg».proof.Proof.Gen.Kernel.Launch
import proofs.«111173_j56453050139463_1_alg».proof.Proof.Gen.Kernel.Points
import proofs.«111173_j56453050139463_1_alg».proof.Proof.Gen.Kernel.Frame
import proofs.«111173_j56453050139463_1_alg».proof.Proof.Gen.KernelIdeal
import proofs.«111173_j56453050139463_1_alg».proof.Proof.Gen.KernelIdeal.Skeleton
import proofs.«111173_j56453050139463_1_alg».proof.Proof.Gen.KernelIdeal.Launch
import proofs.«111173_j56453050139463_1_alg».proof.Proof.Gen.KernelIdeal.Points
import proofs.«111173_j56453050139463_1_alg».proof.Proof.Gen.KernelIdeal.Frame
import proofs.«111173_j56453050139463_1_alg».proof.Proof.Gen.ReferenceIdeal
import proofs.«111173_j56453050139463_1_alg».proof.Proof.Gen.Pre_finite_inputs
import proofs.«111173_j56453050139463_1_alg».proof.Proof.Gen.KernelIdeal.Value
import proofs.«111173_j56453050139463_1_alg».proof.Proof.Gen.ReferenceIdeal.Run
import proofs.«111173_j56453050139463_1_alg».proof.Proof.Gen.ReferenceIdeal.Read
import proofs.«111173_j56453050139463_1_alg».proof.Proof.RefIsSpec
import proofs.«111173_j56453050139463_1_alg».proof.Proof.Blocks
import Idealize.ShloMosaic.Adequacy
import Idealize.ShloMosaic.Init

noncomputable section

namespace Cert.Proof

open Idealize.ShloMosaic Idealize.SL.Sem

/-- The word-level kernel runs and leaves its arguments unchanged: its generated frame. -/
theorem frame_k : Cert.frame_Kernel := fun m ρ _ => Cert.Kernel.Gen.frame m ρ

/-- The idealized kernel runs and leaves its arguments unchanged: its generated frame. -/
theorem frame_ki : Cert.frame_KernelIdeal := fun m ρ _ => Cert.KernelIdeal.Gen.frame m ρ

/-- The reference runs and leaves its arguments unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array and the reference's result are the
    same function of those arguments: the specification at the input, the host's style and demodulation
    coefficients, the weight and the bias. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Blocks.result m c
  rw [Cert.ReferenceIdeal.Read.val_main_v29_eq, Cert.ReferenceIdeal.RefValue.result_eq]
  obtain ⟨a0, a1, a2, a3, a4, a5⟩ := hagree c
  rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
